-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S256x512 : Shape := ⟨2, ![256, 512]⟩
abbrev S256x2048 : Shape := ⟨2, ![256, 2048]⟩

abbrev nBuf : Space → Nat
  | .hbm => 20
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048, .f32⟩
  | .hbm, ⟨13, _⟩ => ⟨S2048x512, .f32⟩
  | .hbm, ⟨14, _⟩ => ⟨S2048x512, .f32⟩
  | .hbm, ⟨15, _⟩ => ⟨S512x2048, .f32⟩
  | .hbm, ⟨16, _⟩ => ⟨S512x2048, .f32⟩
  | .hbm, ⟨17, _⟩ => ⟨S1x2048, .f32⟩
  | .hbm, ⟨18, _⟩ => ⟨S16384x512, .f32⟩
  | .hbm, ⟨19, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  slices_S2048x1024_S2048x512_0_0 : S2048x1024.Slices ![0, 0] S2048x512
  slices_S2048x1024_S2048x512_0_512 : S2048x1024.Slices ![0, 512] S2048x512
  transposes_S2048x512_S512x2048_1_0 : S2048x512.Transposes [1, 0] S512x2048
  shapeCasts_S2048_S1x2048 : S2048.ShapeCasts S1x2048
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S16384x512.size a
  hwx0_6 : ∀ i : grid0.Coords, EltTy.bits .f32 = 32 ∨ (Rect.block (s := S16384x512) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S16384x512.size a
  hwx0_7 : ∀ i : grid0.Coords, EltTy.bits .f32 = 32 ∨ (Rect.block (s := S16384x512) S256x512.size (cc0_transform_7 i) (hinb0_7 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S512 : Shape := ⟨1, ![512]⟩
abbrev S16384x1024 : Shape := ⟨2, ![16384, 1024]⟩
abbrev S2048x1024 : Shape := ⟨2, ![2048, 1024]⟩
abbrev S2048 : Shape := ⟨1, ![2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S16384x1024, .f32⟩
  | .hbm, ⟨12, _⟩ => ⟨S2048x1024, .f32⟩
  | .hbm, ⟨13, _⟩ => ⟨S2048, .f32⟩
  | .hbm, ⟨14, _⟩ => ⟨S1024x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.BitsFrame.lean ====
/-
  The frame of the printed LSTM-cell program, at any float instance `F`.

  @main first builds, on the host, the stacked gate weights (the four weight matrices stacked along their rows),
  the stacked bias, the two column halves of the stacked weights transposed, and the bias as one row; then one
  pipelined region runs the cell over 64 row tiles of 256 rows. Nothing before the region writes an argument
  array, the region stages `prev_h`, `input_` and `prev_c` tile by tile and the three host-built operands
  whole, and writes back only the two result arrays. The body loads its six input buffers whole and stores each
  result buffer whole, so what a result buffer holds after the body is one piece: the body's value for that
  result, as a function of the six input blocks.
-/
import proofs.«162105_j17102559772818_1_alg».proof.Proof.Gen.Kernel.Launch
import proofs.«162105_j17102559772818_1_alg».proof.Proof.Gen.Kernel.Skeleton
import proofs.«162105_j17102559772818_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Lstm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The eleven argument arrays end as launched: the three staged ones are input windows (never written back),
    the other eight are arrays no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole 256×512 tile, the whole 512×2048 weight slab, the whole bias row. -/
abbrev rTile : Rect S256x512 := Rect.unit (s := S256x512) ![0, 0] S256x512.size inb_S256x512_S256x512_0_0
abbrev rSlab : Rect S512x2048 := Rect.unit (s := S512x2048) ![0, 0] S512x2048.size inb_S512x2048_S512x2048_0_0
abbrev rRow : Rect S1x2048 := Rect.unit (s := S1x2048) ![0, 0] S1x2048.size inb_S1x2048_S1x2048_0_0

/-! ## What the body leaves in each result buffer -/

/-- The new hidden state's buffer after the body: one whole-tile piece, the body's value `tanh(c') · o`
    of the six input blocks. -/
def hOut (x0 x1 x2 : Vec F S256x512 .f32) (x3 x4 : Vec F S512x2048 .f32) (x5 : Vec F S1x2048 .f32) : Vec F S256x512 .f32 :=
  View.canon [⟨rTile, k0_pay3 (View.ld x0 rTile) (View.ld x1 rTile) (View.ld x3 rSlab) (View.ld x4 rSlab) (View.ld x5 rRow) (View.ld x2 rTile)⟩]

/-- The new cell state's buffer after the body: one whole-tile piece, `f · c + i · g`. -/
def cOut (x0 x1 x2 : Vec F S256x512 .f32) (x3 x4 : Vec F S512x2048 .f32) (x5 : Vec F S1x2048 .f32) : Vec F S256x512 .f32 :=
  View.canon [⟨rTile, k0_pay2 (View.ld x0 rTile) (View.ld x1 rTile) (View.ld x3 rSlab) (View.ld x4 rSlab) (View.ld x5 rRow) (View.ld x2 rTile)⟩]

/-- One whole-tile store covers the tile. -/
theorem coverTile (p0 : Vec F S256x512 .f32) (y : S256x512.Idx) :
    ∃ pc ∈ ([⟨rTile, p0⟩] : List (View.Piece (Elt F) S256x512 .f32)), y ∈ pc.1.set :=
  View.cover_of_tiled [⟨rTile, p0⟩] S256x512.size (by rfl) y

/-! ## The body's triple -/

set_option maxHeartbeats 1000000 in
/-- The body on whole staging buffers — the six inputs' at contents `x0 … x5`, the two results' at anything —
    runs to the continuation with the inputs' as they were and the results' at `hOut` and `cOut`. -/
theorem sound_kernel (c : Dev nD) (E : Set ℕ) (i : grid0.Coords)
    (arg1 : Memref sig .tc .vmem S256x512 .f32) (harg1 : arg1.IsWhole) (arg2 : Memref sig .tc .vmem S256x512 .f32) (harg2 : arg2.IsWhole)
    (arg3 : Memref sig .tc .vmem S256x512 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S256x512 .f32) (harg7 : arg7.IsWhole) (arg8 : Memref sig .tc .vmem S256x512 .f32) (harg8 : arg8.IsWhole)
    (x0 x1 x2 : Vec F S256x512 .f32) (x3 x4 : Vec F S512x2048 .f32) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5) ∗ owns (c : Thread nD τ) arg8 fullShare (cOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at point `t` each input's
    buffer at its block and each result's at the body's value of the six input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without fault; every array of the pipeline ends at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Lstm

end
-- ==== Proof.IdealFrame.lean ====
/-
  The frame of the printed LSTM-cell program, at any float instance `F`.

  @main first builds, on the host, the stacked gate weights (the four weight matrices stacked along their rows),
  the stacked bias, the two column halves of the stacked weights transposed, and the bias as one row; then one
  pipelined region runs the cell over 64 row tiles of 256 rows. Nothing before the region writes an argument
  array, the region stages `prev_h`, `input_` and `prev_c` tile by tile and the three host-built operands
  whole, and writes back only the two result arrays. The body loads its six input buffers whole and stores each
  result buffer whole, so what a result buffer holds after the body is one piece: the body's value for that
  result, as a function of the six input blocks.
-/
import proofs.«162105_j17102559772818_1_alg».proof.Proof.Gen.KernelIdeal.Launch
import proofs.«162105_j17102559772818_1_alg».proof.Proof.Gen.KernelIdeal.Skeleton
import proofs.«162105_j17102559772818_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Lstm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The eleven argument arrays end as launched: the three staged ones are input windows (never written back),
    the other eight are arrays no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- The whole 256×512 tile, the whole 512×2048 weight slab, the whole bias row. -/
abbrev rTile : Rect S256x512 := Rect.unit (s := S256x512) ![0, 0] S256x512.size inb_S256x512_S256x512_0_0
abbrev rSlab : Rect S512x2048 := Rect.unit (s := S512x2048) ![0, 0] S512x2048.size inb_S512x2048_S512x2048_0_0
abbrev rRow : Rect S1x2048 := Rect.unit (s := S1x2048) ![0, 0] S1x2048.size inb_S1x2048_S1x2048_0_0

/-! ## What the body leaves in each result buffer -/

/-- The new hidden state's buffer after the body: one whole-tile piece, the body's value `tanh(c') · o`
    of the six input blocks. -/
def hOut (x0 x1 x2 : Vec F S256x512 .f32) (x3 x4 : Vec F S512x2048 .f32) (x5 : Vec F S1x2048 .f32) : Vec F S256x512 .f32 :=
  View.canon [⟨rTile, k0_pay3 (View.ld x0 rTile) (View.ld x1 rTile) (View.ld x3 rSlab) (View.ld x4 rSlab) (View.ld x5 rRow) (View.ld x2 rTile)⟩]

/-- The new cell state's buffer after the body: one whole-tile piece, `f · c + i · g`. -/
def cOut (x0 x1 x2 : Vec F S256x512 .f32) (x3 x4 : Vec F S512x2048 .f32) (x5 : Vec F S1x2048 .f32) : Vec F S256x512 .f32 :=
  View.canon [⟨rTile, k0_pay2 (View.ld x0 rTile) (View.ld x1 rTile) (View.ld x3 rSlab) (View.ld x4 rSlab) (View.ld x5 rRow) (View.ld x2 rTile)⟩]

/-- One whole-tile store covers the tile. -/
theorem coverTile (p0 : Vec F S256x512 .f32) (y : S256x512.Idx) :
    ∃ pc ∈ ([⟨rTile, p0⟩] : List (View.Piece (Elt F) S256x512 .f32)), y ∈ pc.1.set :=
  View.cover_of_tiled [⟨rTile, p0⟩] S256x512.size (by rfl) y

/-! ## The body's triple -/

set_option maxHeartbeats 1000000 in
/-- The body on whole staging buffers — the six inputs' at contents `x0 … x5`, the two results' at anything —
    runs to the continuation with the inputs' as they were and the results' at `hOut` and `cOut`. -/
theorem sound_kernel (c : Dev nD) (E : Set ℕ) (i : grid0.Coords)
    (arg1 : Memref sig .tc .vmem S256x512 .f32) (harg1 : arg1.IsWhole) (arg2 : Memref sig .tc .vmem S256x512 .f32) (harg2 : arg2.IsWhole)
    (arg3 : Memref sig .tc .vmem S256x512 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S256x512 .f32) (harg7 : arg7.IsWhole) (arg8 : Memref sig .tc .vmem S256x512 .f32) (harg8 : arg8.IsWhole)
    (x0 x1 x2 : Vec F S256x512 .f32) (x3 x4 : Vec F S512x2048 .f32) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hOut x0 x1 x2 x3 x4 x5) ∗ owns (c : Thread nD τ) arg8 fullShare (cOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data on core `c`: the arrays as the region finds them; after the body at point `t` each input's
    buffer at its block and each result's at the body's value of the six input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without fault; every array of the pipeline ends at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Lstm

end
-- ==== Proof.LstmSpec.lean ====
/-
  The LSTM cell as one function of its arrays, entry by entry, on the extended reals.

  With `h` the previous hidden state, `x` the input (both 16384 × 512), `c` the previous cell state, `W` the four
  gate weight matrices stacked along their rows (2048 × 1024: rows 0–511 the input gate's, 512–1023 the forget
  gate's, 1024–1535 the output gate's, 1536–2047 the candidate's) and `b` the stacked bias, the pre-activation of
  gate column `j` at batch row `p` is

      gate p j = Σ_{k<512} h[p,k] · W[j,k]  +  Σ_{k<512} x[p,k] · W[j,512+k]  +  b[j]

  and the cell is  c' = σ(gate[512+q]) · c + σ(gate[q]) · tanh(gate[1536+q]),  h' = tanh(c') · σ(gate[1024+q]).

  One program contracts the hidden half and the input half separately and adds; the other contracts the row
  `[h | x]` of length 1024 against the whole weight row at once. A sum over 1024 positions is the sum over the first
  512 plus the sum over the last 512 in any commutative monoid, so the two agree on the extended reals with no
  appeal to finiteness.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx
open scoped BigOperators

/-- batch × hidden; stacked gate rows × (hidden + input); stacked gate rows. -/
abbrev SB : Shape := ⟨2, ![16384, 512]⟩
abbrev SW : Shape := ⟨2, ![2048, 1024]⟩
abbrev Sv : Shape := ⟨1, ![2048]⟩

/-- Column `k` of the hidden half of a weight row, and of its input half. -/
abbrev lo (k : Fin 512) : Fin 1024 := ⟨k.val, Nat.lt_of_lt_of_le k.isLt (by decide)⟩
abbrev hi (k : Fin 512) : Fin 1024 := ⟨512 + k.val, by have := k.isLt; omega⟩

/-- Column `q` of each of the four gates among the 2048 stacked columns. -/
abbrev gI (q : Fin 512) : Fin 2048 := ⟨q.val, Nat.lt_of_lt_of_le q.isLt (by decide)⟩
abbrev gF (q : Fin 512) : Fin 2048 := ⟨512 + q.val, by have := q.isLt; omega⟩
abbrev gO (q : Fin 512) : Fin 2048 := ⟨1024 + q.val, by have := q.isLt; omega⟩
abbrev gG (q : Fin 512) : Fin 2048 := ⟨1536 + q.val, by have := q.isLt; omega⟩

/-- A sum over 1024 positions is the sum over the first 512 plus the sum over the last 512. -/
theorem sum_halves {M : Type} [AddCommMonoid M] (f : Fin 1024 → M) :
    ∑ k : Fin 1024, f k = (∑ k : Fin 512, f (lo k)) + ∑ k : Fin 512, f (hi k) :=
  Fin.sum_univ_add (a := 512) (b := 512) (f : Fin (512 + 512) → M)

section
variable (h x c : SB.Idx → EReal) (W : SW.Idx → EReal) (b : Sv.Idx → EReal)

/-- Gate column `j`'s pre-activation at batch row `p`: the hidden half's contraction, plus the input half's, plus the bias. -/
def gate (p : Fin 16384) (j : Fin 2048) : EReal :=
  (∑ k : Fin 512, h (ix2 p k) * W (ix2 j (lo k))) + (∑ k : Fin 512, x (ix2 p k) * W (ix2 j (hi k))) + b (ix1 j)

/-- The new cell state: forget gate times the old state plus input gate times the candidate. -/
def cNew (p : Fin 16384) (q : Fin 512) : EReal :=
  Ideal.logistic (gate h x W b p (gF q)) * c (ix2 p q) + Ideal.logistic (gate h x W b p (gI q)) * Ideal.tanh (gate h x W b p (gG q))

/-- The new hidden state: `tanh` of the new cell state times the output gate. -/
def hNew (p : Fin 16384) (q : Fin 512) : EReal :=
  Ideal.tanh (cNew h x c W b p q) * Ideal.logistic (gate h x W b p (gO q))

/-- The two result arrays. -/
def cArr : SB.Idx → EReal := fun i => cNew h x c W b ⟨(i 0).val, (i 0).isLt⟩ ⟨(i 1).val, (i 1).isLt⟩
def hArr : SB.Idx → EReal := fun i => hNew h x c W b ⟨(i 0).val, (i 0).isLt⟩ ⟨(i 1).val, (i 1).isLt⟩

theorem cArr_ix2 (p : Fin 16384) (q : Fin 512) : cArr h x c W b (ix2 p q) = cNew h x c W b p q := rfl
theorem hArr_ix2 (p : Fin 16384) (q : Fin 512) : hArr h x c W b (ix2 p q) = hNew h x c W b p q := rfl

/-- The one-contraction form: if `xs` is the row `[h | x]`, contracting it against the whole weight row and adding
    the bias is `gate`. -/
theorem gate_of_joined (xs : (⟨2, ![16384, 1024]⟩ : Shape).Idx → EReal)
    (hlo : ∀ (p : Fin 16384) (k : Fin 512), xs (ix2 p (lo k)) = h (ix2 p k))
    (hhi : ∀ (p : Fin 16384) (k : Fin 512), xs (ix2 p (hi k)) = x (ix2 p k))
    (p : Fin 16384) (j : Fin 2048) :
    (∑ k : Fin 1024, xs (ix2 p k) * W (ix2 j k)) + b (ix1 j) = gate h x W b p j := by
  unfold gate
  rw [sum_halves]
  simp only [hlo, hhi]

end

end Cert.LstmSpec

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.IdealPayload.lean ====
/-
  The kernel body's two stored values, entry by entry, on the extended reals.

  At row `r` of a 256-row tile, with `x0` the tile of `prev_h`, `x1` of `input_`, `x2` of `prev_c`, `x3` and `x4`
  the two 512 × 2048 weight slabs and `x5` the bias row, the body forms the 2048 gate pre-activations
  `Σ_k x0[r,k]·x3[k,j] + Σ_k x1[r,k]·x4[k,j] + x5[0,j]` (a change of float format is the identity here, and a
  matrix product into the zero accumulator is the plain sum), cuts them into four groups of 512 columns, and
  stores  c' = σ(f)·c + σ(i)·tanh(g)  and  h' = tanh(c')·σ(o).
  If the tile, the slabs and the row are the corresponding entries of the whole arrays, these are `cNew` and `hNew`.
-/
import proofs.«162105_j17102559772818_1_alg».proof.Proof.Gen.KernelIdeal.Skeleton
import proofs.«162105_j17102559772818_1_alg».proof.Proof.LstmSpec
import proofs.«162105_j17102559772818_1_alg».proof.Proof.LibPlainDot
import Idealize.ShloMosaic.Lib.Pipeline.Value
import Idealize.ShloMosaic.Lib.ValueIdx

noncomputable section

namespace Cert.KernelIdeal.LstmBody

open Cert.KernelIdeal Cert.KernelIdeal.Gen Cert.LstmSpec
open Idealize.ShloMosaic Idealize.ShloMosaic.ValueIdx
open scoped BigOperators

variable (x0 x1 x2 : Vec Ideal S256x512 .f32) (x3 x4 : Vec Ideal S512x2048 .f32) (x5 : Vec Ideal S1x2048 .f32)

/-- Gate column `j`'s pre-activation at tile row `r`, from the six blocks. -/
def tileGate (r : Fin 256) (j : Fin 2048) : EReal :=
  (∑ k : Fin 512, x0 (ix2 r k) * x3 (ix2 k j)) + (∑ k : Fin 512, x1 (ix2 r k) * x4 (ix2 k j)) + x5 (ix2 (0 : Fin 1) j)

/-- A product of a tile with a slab, both passed through the format change and the slab through a same-shape cast,
    into the zero accumulator: the plain sum. -/
theorem tile_matmul (a : Vec Ideal S256x512 .f32) (w : Vec Ideal S512x2048 .f32) (r : Fin 256) (j : Fin 2048) :
    FloatOps.matmul (F := Ideal) dot_S256x512_S512x2048_S256x2048_1_0_0_1_n_n none (truncf .bf16 a bitsLt_bf16_f32)
        (truncf .bf16 (shapeCast S512x2048 w shapeCasts_S512x2048_S512x2048) bitsLt_bf16_f32)
        (constant (F := Ideal) S256x2048 .f32 0x00000000#32) (ix2 r j)
      = ∑ k : Fin 512, a (ix2 r k) * w (ix2 k j) := by
  rw [shapeCast_self]
  exact Cert.PlainDot.matmul_zero_apply dot_S256x512_S512x2048_S256x2048_1_0_0_1_n_n rfl rfl rfl rfl rfl rfl none _ _ r j

/-- The bias row broadcast down the tile's rows. -/
theorem bias_row (r : Fin 256) (j : Fin 2048) :
    broadcastTo S256x2048 (shapeCast S1x2048 x5 shapeCasts_S1x2048_S1x2048) broadcasts_S1x2048_S256x2048 (ix2 r j) = x5 (ix2 (0 : Fin 1) j) := by
  rw [shapeCast_self]
  exact broadcastTo_apply x5 broadcasts_S1x2048_S256x2048 (ix2 r j) (ix2 (0 : Fin 1) j) (fun a => by
    match a with
    | ⟨0, _⟩ => show (0 : Nat) = if (1 : Nat) = 1 then 0 else r.val; rw [if_pos rfl]
    | ⟨1, _⟩ => show j.val = if (2048 : Nat) = 1 then 0 else j.val; rw [if_neg (by decide)])

/-- The body's gate array at an entry. -/
theorem gates_apply (r : Fin 256) (j : Fin 2048) : k0_pay1 x0 x1 x3 x4 x5 (ix2 r j) = tileGate x0 x1 x3 x4 x5 r j := by
  unfold k0_pay1 tileGate
  exact congrArg₂ (· + ·) (congrArg₂ (· + ·) (tile_matmul x0 x3 r j) (tile_matmul x1 x4 r j)) (bias_row x5 r j)

/-- A 512-column group of the gate array at an entry: the gate array `o` columns further on. -/
theorem group_apply (P : Vec Ideal S256x2048 .f32) (o : Nat) (ho : o + 512 ≤ 2048) (hs : S256x2048.Slices ![0, o] S256x512)
    (r : Fin 256) (q : Fin 512) :
    extractStridedSlice S256x512 ![0, o] P hs (ix2 r q) = P (ix2 r ⟨o + q.val, by have := q.isLt; omega⟩) :=
  extractStridedSlice_apply ![0, o] P hs (ix2 r q) (ix2 r ⟨o + q.val, by have := q.isLt; omega⟩) (fun a => by
    match a with
    | ⟨0, _⟩ => show r.val = 0 + r.val; omega
    | ⟨1, _⟩ => show o + q.val = o + q.val; rfl)

/-- The stored cell state at an entry. -/
theorem cell_apply (r : Fin 256) (q : Fin 512) :
    k0_pay2 x0 x1 x3 x4 x5 x2 (ix2 r q)
      = Ideal.logistic (tileGate x0 x1 x3 x4 x5 r (gF q)) * x2 (ix2 r q)
        + Ideal.logistic (tileGate x0 x1 x3 x4 x5 r (gI q)) * Ideal.tanh (tileGate x0 x1 x3 x4 x5 r (gG q)) := by
  have hI := (group_apply (k0_pay1 x0 x1 x3 x4 x5) 0 (by decide) slices_S256x2048_o0_0_S256x512 r q).trans
    ((congrArg (fun j : Fin 2048 => k0_pay1 x0 x1 x3 x4 x5 (ix2 r j)) (Fin.ext (Nat.zero_add q.val) : (⟨0 + q.val, _⟩ : Fin 2048) = gI q)).trans (gates_apply x0 x1 x3 x4 x5 r (gI q)))
  have hF := (group_apply (k0_pay1 x0 x1 x3 x4 x5) 512 (by decide) slices_S256x2048_o0_512_S256x512 r q).trans (gates_apply x0 x1 x3 x4 x5 r (gF q))
  have hG := (group_apply (k0_pay1 x0 x1 x3 x4 x5) 1536 (by decide) slices_S256x2048_o0_1536_S256x512 r q).trans (gates_apply x0 x1 x3 x4 x5 r (gG q))
  unfold k0_pay2
  exact congrArg₂ (· + ·) (congrArg₂ (· * ·) (congrArg Ideal.logistic hF) rfl)
    (congrArg₂ (· * ·) (congrArg Ideal.logistic hI) (congrArg Ideal.tanh hG))

/-- The stored hidden state at an entry. -/
theorem hidden_apply (r : Fin 256) (q : Fin 512) :
    k0_pay3 x0 x1 x3 x4 x5 x2 (ix2 r q)
      = Ideal.tanh (k0_pay2 x0 x1 x3 x4 x5 x2 (ix2 r q)) * Ideal.logistic (tileGate x0 x1 x3 x4 x5 r (gO q)) := by
  have hO := (group_apply (k0_pay1 x0 x1 x3 x4 x5) 1024 (by decide) slices_S256x2048_o0_1024_S256x512 r q).trans (gates_apply x0 x1 x3 x4 x5 r (gO q))
  unfold k0_pay3
  exact congrArg₂ (· * ·) rfl (congrArg Ideal.logistic hO)

/-! ## The blocks as entries of the whole arrays -/

section Whole
variable (h x c : SB.Idx → EReal) (W : SW.Idx → EReal) (b : Sv.Idx → EReal)
variable (P : Fin 16384) (r : Fin 256)
variable (h0 : ∀ k : Fin 512, x0 (ix2 r k) = h (ix2 P k)) (h1 : ∀ k : Fin 512, x1 (ix2 r k) = x (ix2 P k))
variable (h2 : ∀ q : Fin 512, x2 (ix2 r q) = c (ix2 P q))
variable (h3 : ∀ (k : Fin 512) (j : Fin 2048), x3 (ix2 k j) = W (ix2 j (lo k)))
variable (h4 : ∀ (k : Fin 512) (j : Fin 2048), x4 (ix2 k j) = W (ix2 j (hi k)))
variable (h5 : ∀ j : Fin 2048, x5 (ix2 (0 : Fin 1) j) = b (ix1 j))

include h0 h1 h3 h4 h5 in
/-- Row `r` of the tile being row `P` of the batch, the slabs the two transposed halves of the stacked weights and
    the row the stacked bias, the tile's gate is the cell's. -/
theorem tileGate_eq (j : Fin 2048) : tileGate x0 x1 x3 x4 x5 r j = gate h x W b P j := by
  unfold tileGate gate
  simp only [h0, h1, h3, h4, h5]

include h0 h1 h2 h3 h4 h5 in
theorem cell_eq (q : Fin 512) : k0_pay2 x0 x1 x3 x4 x5 x2 (ix2 r q) = cNew h x c W b P q := by
  rw [cell_apply]
  unfold cNew
  rw [tileGate_eq x0 x1 x3 x4 x5 h x W b P r h0 h1 h3 h4 h5, tileGate_eq x0 x1 x3 x4 x5 h x W b P r h0 h1 h3 h4 h5,
    tileGate_eq x0 x1 x3 x4 x5 h x W b P r h0 h1 h3 h4 h5, h2]

include h0 h1 h2 h3 h4 h5 in
theorem hidden_eq (q : Fin 512) : k0_pay3 x0 x1 x3 x4 x5 x2 (ix2 r q) = hNew h x c W b P q := by
  rw [hidden_apply, cell_eq x0 x1 x2 x3 x4 x5 h x c W b P r h0 h1 h2 h3 h4 h5]
  unfold hNew
  rw [tileGate_eq x0 x1 x3 x4 x5 h x W b P r h0 h1 h3 h4 h5]

end Whole

end Cert.KernelIdeal.LstmBody

end
-- ==== Proof.IdealValue.lean ====
/-
  The idealized kernel program computes the LSTM cell of `LstmSpec`.

  The host part of @main hands the region the two transposed column halves of the stacked weights and the stacked
  bias as one row. Grid point `t` stages rows `256·t … 256·t + 255` of `prev_h`, `input_` and `prev_c`, and the
  three host-built operands whole; what it writes back to each result array is the body's value of those blocks,
  which entry by entry is the cell's value at batch row `256·t + r`. The 64 tiles cover the 16384 rows, so each
  result array ends as the cell's whole array.
-/
import proofs.«162105_j17102559772818_1_alg».proof.Proof.IdealFrame
import proofs.«162105_j17102559772818_1_alg».proof.Proof.IdealPayload
import Idealize.ShloMosaic.Lib.Pipeline.Value
import Idealize.ShloMosaic.Lib.StableHlo.Run

set_option maxRecDepth 16384

noncomputable section

namespace Cert.KernelIdeal.LstmValue

open Cert.KernelIdeal Cert.KernelIdeal.Gen Cert.KernelIdeal.Lstm Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the host part of @main builds -/

/-- The four gate weight matrices stacked along their rows, and the four biases stacked. -/
abbrev Wst (c : Dev nD) : SW.Idx → EReal :=
  concatenate S2048x1024 0 [⟨S512x1024, m ((c : Thread nD τ).loc main_arg3)⟩, ⟨S512x1024, m ((c : Thread nD τ).loc main_arg5)⟩, ⟨S512x1024, m ((c : Thread nD τ).loc main_arg9)⟩, ⟨S512x1024, m ((c : Thread nD τ).loc main_arg7)⟩]
    concatenates_S512x1024_S512x1024_S512x1024_S512x1024_S2048x1024_d0
abbrev bst (c : Dev nD) : Sv.Idx → EReal :=
  concatenate S2048 0 [⟨S512, m ((c : Thread nD τ).loc main_arg4)⟩, ⟨S512, m ((c : Thread nD τ).loc main_arg6)⟩, ⟨S512, m ((c : Thread nD τ).loc main_arg10)⟩, ⟨S512, m ((c : Thread nD τ).loc main_arg8)⟩]
    concatenates_S512_S512_S512_S512_S2048_d0

/-- The hidden-half slab: the first 512 columns of the stacked weights, transposed. -/
theorem V_slabH (c : Dev nD) : (V m c main_v4 : S512x2048.Idx → EReal)
    = transpose S512x2048 [1, 0] (extractStridedSlice S2048x512 ![0, 0] (Wst m c) slices_S2048x1024_S2048x512_0_0) transposes_S2048x512_S512x2048_1_0 := by
  dsimp only [V, hostOps0]; after_results; rfl

/-- The input-half slab: the last 512 columns of the stacked weights, transposed. -/
theorem V_slabX (c : Dev nD) : (V m c main_v5 : S512x2048.Idx → EReal)
    = transpose S512x2048 [1, 0] (extractStridedSlice S2048x512 ![0, 512] (Wst m c) slices_S2048x1024_S2048x512_0_512) transposes_S2048x512_S512x2048_1_0 := by
  dsimp only [V, hostOps0]; after_results; rfl

/-- The bias row: the stacked bias as a 1 × 2048 array. -/
theorem V_row (c : Dev nD) : (V m c main_v6 : S1x2048.Idx → EReal) = shapeCast S1x2048 (bst m c) shapeCasts_S2048_S1x2048 := by
  dsimp only [V, hostOps0]; after_results; rfl

theorem slabH_apply (c : Dev nD) (k : Fin 512) (j : Fin 2048) : V m c main_v4 (ix2 k j) = Wst m c (ix2 j (lo k)) :=
  (congrFun (V_slabH m c) (ix2 k j)).trans
    ((transpose_apply [1, 0] _ transposes_S2048x512_S512x2048_1_0 (ix2 k j) (ix2 j k) (fun b => match b with
      | ⟨0, _⟩ => rfl
      | ⟨1, _⟩ => rfl)).trans
    (extractStridedSlice_apply ![0, 0] (Wst m c) slices_S2048x1024_S2048x512_0_0 (ix2 j k) (ix2 j (lo k)) (fun a => match a with
      | ⟨0, _⟩ => by show j.val = 0 + j.val; omega
      | ⟨1, _⟩ => by show k.val = 0 + k.val; omega)))

theorem slabX_apply (c : Dev nD) (k : Fin 512) (j : Fin 2048) : V m c main_v5 (ix2 k j) = Wst m c (ix2 j (hi k)) :=
  (congrFun (V_slabX m c) (ix2 k j)).trans
    ((transpose_apply [1, 0] _ transposes_S2048x512_S512x2048_1_0 (ix2 k j) (ix2 j k) (fun b => match b with
      | ⟨0, _⟩ => rfl
      | ⟨1, _⟩ => rfl)).trans
    (extractStridedSlice_apply ![0, 512] (Wst m c) slices_S2048x1024_S2048x512_0_512 (ix2 j k) (ix2 j (hi k)) (fun a => match a with
      | ⟨0, _⟩ => by show j.val = 0 + j.val; omega
      | ⟨1, _⟩ => by show 512 + k.val = 512 + k.val; rfl)))

theorem row_apply (c : Dev nD) (j : Fin 2048) : V m c main_v6 (ix2 (0 : Fin 1) j) = bst m c (ix1 j) :=
  (congrFun (V_row m c) (ix2 (0 : Fin 1) j)).trans
    (shapeCast_apply (bst m c) shapeCasts_S2048_S1x2048 (ix2 (0 : Fin 1) j) (ix1 j) (by
      rw [Shape.rowMajor_val_one, Shape.rowMajor_val_two]
      show j.val = 0 * 2048 + j.val
      omega))

/-! ## The blocks a grid point stages -/

/-- The printed index maps over the 64 grid points: the three batch-tiled inputs and the two results move one tile
    per point along the rows; the three host-built operands stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 64 := lt_of_lt_of_eq t.isLt N_0

/-- Row `r` of tile `t` is batch row `256·t + r`. -/
abbrev row (t : Fin cfg0.N) (r : Fin 256) : Fin 16384 := ⟨t.val * 256 + r.val, by have := t_lt t; have := r.isLt; omega⟩

theorem blkH (c : Dev nD) (t : Fin cfg0.N) (r : Fin 256) (k : Fin 512) :
    iblk m c 0 t (ix2 r k) = m ((c : Thread nD τ).loc main_arg1) (ix2 (row t r) k) := by
  obtain ⟨e0, e1, -⟩ := idx_facts t
  show V m c main_arg1 (((cfg0.win 0).blk t).view.emb (ix2 r k)) = _
  rw [V_main_arg1]
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 512 + 1 * k.val = k.val; omega

theorem blkX (c : Dev nD) (t : Fin cfg0.N) (r : Fin 256) (k : Fin 512) :
    iblk m c 1 t (ix2 r k) = m ((c : Thread nD τ).loc main_arg0) (ix2 (row t r) k) := by
  obtain ⟨-, -, e0, e1, -⟩ := idx_facts t
  show V m c main_arg0 (((cfg0.win 1).blk t).view.emb (ix2 r k)) = _
  rw [V_main_arg0]
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 512 + 1 * k.val = k.val; omega

theorem blkC (c : Dev nD) (t : Fin cfg0.N) (r : Fin 256) (q : Fin 512) :
    iblk m c 2 t (ix2 r q) = m ((c : Thread nD τ).loc main_arg2) (ix2 (row t r) q) := by
  obtain ⟨-, -, -, -, e0, e1, -⟩ := idx_facts t
  show V m c main_arg2 (((cfg0.win 2).blk t).view.emb (ix2 r q)) = _
  rw [V_main_arg2]
  refine congrArg _ (funext fun a => Fin.ext ?_)
  match a with
  | ⟨0, _⟩ => show win0_2.index t (0 : Fin 2) * 256 + 1 * r.val = t.val * 256 + r.val; omega
  | ⟨1, _⟩ => show win0_2.index t (1 : Fin 2) * 512 + 1 * q.val = q.val; omega

theorem blkWh (c : Dev nD) (t : Fin cfg0.N) (k : Fin 512) (j : Fin 2048) :
    iblk m c 3 t (ix2 k j) = Wst m c (ix2 j (lo k)) := by
  obtain ⟨-, -, -, -, -, -, e0, e1, -⟩ := idx_facts t
  refine Eq.trans ?_ (slabH_apply m c k j)
  show V m c main_v4 (((cfg0.win 3).blk t).view.emb (ix2 k j)) = V m c main_v4 (ix2 k j)
  refine congrArg _ (funext fun a => Fin.ext ?_)
  match a with
  | ⟨0, _⟩ => show win0_3.index t (0 : Fin 2) * 512 + 1 * k.val = k.val; omega
  | ⟨1, _⟩ => show win0_3.index t (1 : Fin 2) * 2048 + 1 * j.val = j.val; omega

theorem blkWx (c : Dev nD) (t : Fin cfg0.N) (k : Fin 512) (j : Fin 2048) :
    iblk m c 4 t (ix2 k j) = Wst m c (ix2 j (hi k)) := by
  obtain ⟨-, -, -, -, -, -, -, -, e0, e1, -⟩ := idx_facts t
  refine Eq.trans ?_ (slabX_apply m c k j)
  show V m c main_v5 (((cfg0.win 4).blk t).view.emb (ix2 k j)) = V m c main_v5 (ix2 k j)
  refine congrArg _ (funext fun a => Fin.ext ?_)
  match a with
  | ⟨0, _⟩ => show win0_4.index t (0 : Fin 2) * 512 + 1 * k.val = k.val; omega
  | ⟨1, _⟩ => show win0_4.index t (1 : Fin 2) * 2048 + 1 * j.val = j.val; omega

theorem blkB (c : Dev nD) (t : Fin cfg0.N) (j : Fin 2048) :
    iblk m c 5 t (ix2 (0 : Fin 1) j) = bst m c (ix1 j) := by
  obtain ⟨-, -, -, -, -, -, -, -, -, -, e0, e1, -⟩ := idx_facts t
  refine Eq.trans ?_ (row_apply m c j)
  show V m c main_v6 (((cfg0.win 5).blk t).view.emb (ix2 (0 : Fin 1) j)) = V m c main_v6 (ix2 (0 : Fin 1) j)
  refine congrArg _ (funext fun a => Fin.ext ?_)
  match a with
  | ⟨0, _⟩ => show win0_5.index t (0 : Fin 2) * 1 + 1 * 0 = 0; omega
  | ⟨1, _⟩ => show win0_5.index t (1 : Fin 2) * 2048 + 1 * j.val = j.val; omega

/-! ## What a grid point writes back -/

theorem hz : (![0, 0] : Fin 2 → Nat) = fun _ => 0 := funext fun a => by fin_cases a <;> rfl

/-- The cell's two result arrays, of the arguments as launched. -/
abbrev cRes (c : Dev nD) : SB.Idx → EReal := cArr (m ((c : Thread nD τ).loc main_arg1)) (m ((c : Thread nD τ).loc main_arg0)) (m ((c : Thread nD τ).loc main_arg2)) (Wst m c) (bst m c)
abbrev hRes (c : Dev nD) : SB.Idx → EReal := hArr (m ((c : Thread nD τ).loc main_arg1)) (m ((c : Thread nD τ).loc main_arg0)) (m ((c : Thread nD τ).loc main_arg2)) (Wst m c) (bst m c)

/-- Entry `(r, q)` of a result block at point `t` is entry `(256·t + r, q)` of the result array. -/
theorem embC (t : Fin cfg0.N) (r : Fin 256) (q : Fin 512) : ((cfg0.win 7).blk t).view.emb (ix2 r q) = ix2 (row t r) q := by
  obtain ⟨-, -, -, -, -, -, -, -, -, -, -, -, -, -, e0, e1⟩ := idx_facts t
  refine funext fun a => Fin.ext ?_
  match a with
  | ⟨0, _⟩ => show win0_7.index t (0 : Fin 2) * 256 + 1 * r.val = t.val * 256 + r.val; omega
  | ⟨1, _⟩ => show win0_7.index t (1 : Fin 2) * 512 + 1 * q.val = q.val; omega

theorem embH (t : Fin cfg0.N) (r : Fin 256) (q : Fin 512) : ((cfg0.win 6).blk t).view.emb (ix2 r q) = ix2 (row t r) q := by
  obtain ⟨-, -, -, -, -, -, -, -, -, -, -, -, e0, e1, -⟩ := idx_facts t
  refine funext fun a => Fin.ext ?_
  match a with
  | ⟨0, _⟩ => show win0_6.index t (0 : Fin 2) * 256 + 1 * r.val = t.val * 256 + r.val; omega
  | ⟨1, _⟩ => show win0_6.index t (1 : Fin 2) * 512 + 1 * q.val = q.val; omega

/-- Point `t` writes back block `t` of the new cell state. -/
theorem flushedC_eq (c : Dev nD) (t : Fin cfg0.N) :
    (dats m 0 c).flushed 7 t = ((cfg0.win 7).blk t).view.read (Elt Ideal) (cRes m c) := by
  show (cfg0.win 7).cut (grid0.coords t) ((dats m 0 c).after 7 t) = _
  rw [after7]
  unfold cOut
  rw [View.canon_unit_zero hz]
  simp only [View.ld_unit_zero (S := S256x512) hz, View.ld_unit_zero (S := S512x2048) hz, View.ld_unit_zero (S := S1x2048) hz]
  funext y
  obtain ⟨r, q, rfl⟩ : ∃ (r : Fin 256) (q : Fin 512), y = ix2 r q := ⟨y 0, y 1, eq_ix2 y⟩
  show k0_pay2 (iblk m c 0 t) (iblk m c 1 t) (iblk m c 3 t) (iblk m c 4 t) (iblk m c 5 t) (iblk m c 2 t) (ix2 r q)
    = cRes m c (((cfg0.win 7).blk t).view.emb (ix2 r q))
  rw [embC]
  refine Eq.trans ?_ (cArr_ix2 (m ((c : Thread nD τ).loc main_arg1)) (m ((c : Thread nD τ).loc main_arg0)) (m ((c : Thread nD τ).loc main_arg2)) (Wst m c) (bst m c) (row t r) q).symm
  exact LstmBody.cell_eq (iblk m c 0 t) (iblk m c 1 t) (iblk m c 2 t) (iblk m c 3 t) (iblk m c 4 t) (iblk m c 5 t)
    (m ((c : Thread nD τ).loc main_arg1)) (m ((c : Thread nD τ).loc main_arg0)) (m ((c : Thread nD τ).loc main_arg2)) (Wst m c) (bst m c) (row t r) r
    (blkH m c t r) (blkX m c t r) (blkC m c t r) (blkWh m c t) (blkWx m c t) (blkB m c t) q

/-- Point `t` writes back block `t` of the new hidden state. -/
theorem flushedH_eq (c : Dev nD) (t : Fin cfg0.N) :
    (dats m 0 c).flushed 6 t = ((cfg0.win 6).blk t).view.read (Elt Ideal) (hRes m c) := by
  show (cfg0.win 6).cut (grid0.coords t) ((dats m 0 c).after 6 t) = _
  rw [after6]
  unfold hOut
  rw [View.canon_unit_zero hz]
  simp only [View.ld_unit_zero (S := S256x512) hz, View.ld_unit_zero (S := S512x2048) hz, View.ld_unit_zero (S := S1x2048) hz]
  funext y
  obtain ⟨r, q, rfl⟩ : ∃ (r : Fin 256) (q : Fin 512), y = ix2 r q := ⟨y 0, y 1, eq_ix2 y⟩
  show k0_pay3 (iblk m c 0 t) (iblk m c 1 t) (iblk m c 3 t) (iblk m c 4 t) (iblk m c 5 t) (iblk m c 2 t) (ix2 r q)
    = hRes m c (((cfg0.win 6).blk t).view.emb (ix2 r q))
  rw [embH]
  refine Eq.trans ?_ (hArr_ix2 (m ((c : Thread nD τ).loc main_arg1)) (m ((c : Thread nD τ).loc main_arg0)) (m ((c : Thread nD τ).loc main_arg2)) (Wst m c) (bst m c) (row t r) q).symm
  exact LstmBody.hidden_eq (iblk m c 0 t) (iblk m c 1 t) (iblk m c 2 t) (iblk m c 3 t) (iblk m c 4 t) (iblk m c 5 t)
    (m ((c : Thread nD τ).loc main_arg1)) (m ((c : Thread nD τ).loc main_arg0)) (m ((c : Thread nD τ).loc main_arg2)) (Wst m c) (bst m c) (row t r) r
    (blkH m c t r) (blkX m c t r) (blkC m c t r) (blkWh m c t) (blkWx m c t) (blkB m c t) q

/-! ## The 64 tiles cover the arrays -/

theorem mem_blkC (t : Fin cfg0.N) (i : S16384x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v7_1).slice (win0_7.rect t)).set ↔ _
  rw [View.set_slice_whole, Rect.mem_set_unit]
  exact Iff.rfl

theorem mem_blkH (t : Fin cfg0.N) (i : S16384x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v7_0).slice (win0_6.rect t)).set ↔ _
  rw [View.set_slice_whole, Rect.mem_set_unit]
  exact Iff.rfl

/-- Row `R` lies in tile `R / 256`. -/
theorem coverC (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : (i 0).val / 256 < cfg0.N := by rw [show cfg0.N = 64 from N_0]; omega
  obtain ⟨-, -, -, -, -, -, -, -, -, -, -, -, -, -, e0, e1⟩ := idx_facts ⟨(i 0).val / 256, hN⟩
  have e0' : win0_7.index ⟨(i 0).val / 256, hN⟩ (0 : Fin 2) = (i 0).val / 256 := e0
  refine ⟨⟨(i 0).val / 256, hN⟩, flush0_7 _, ?_⟩
  rw [mem_blkC]
  intro a
  match a with
  | ⟨0, _⟩ => show win0_7.index ⟨(i 0).val / 256, hN⟩ (0 : Fin 2) * 256 ≤ (i 0).val ∧ (i 0).val < win0_7.index ⟨(i 0).val / 256, hN⟩ (0 : Fin 2) * 256 + 256; omega
  | ⟨1, _⟩ => show win0_7.index ⟨(i 0).val / 256, hN⟩ (1 : Fin 2) * 512 ≤ (i 1).val ∧ (i 1).val < win0_7.index ⟨(i 0).val / 256, hN⟩ (1 : Fin 2) * 512 + 512; omega

theorem coverH (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : (i 0).val / 256 < cfg0.N := by rw [show cfg0.N = 64 from N_0]; omega
  obtain ⟨-, -, -, -, -, -, -, -, -, -, -, -, e0, e1, -⟩ := idx_facts ⟨(i 0).val / 256, hN⟩
  have e0' : win0_6.index ⟨(i 0).val / 256, hN⟩ (0 : Fin 2) = (i 0).val / 256 := e0
  refine ⟨⟨(i 0).val / 256, hN⟩, flush0_6 _, ?_⟩
  rw [mem_blkH]
  intro a
  match a with
  | ⟨0, _⟩ => show win0_6.index ⟨(i 0).val / 256, hN⟩ (0 : Fin 2) * 256 ≤ (i 0).val ∧ (i 0).val < win0_6.index ⟨(i 0).val / 256, hN⟩ (0 : Fin 2) * 256 + 256; omega
  | ⟨1, _⟩ => show win0_6.index ⟨(i 0).val / 256, hN⟩ (1 : Fin 2) * 512 ≤ (i 1).val ∧ (i 1).val < win0_6.index ⟨(i 0).val / 256, hN⟩ (1 : Fin 2) * 512 + 512; omega

/-- After the run the two result arrays are the cell's. -/
theorem finalC (c : Dev nD) : (dats m 0 c).arrAt 7 cfg0.N = cRes m c :=
  (dats m 0 c).arrAt_eq_of_cover 7 (cRes m c) (fun t _ => flushedC_eq m c t) coverC
theorem finalH (c : Dev nD) : (dats m 0 c).arrAt 6 cfg0.N = hRes m c :=
  (dats m 0 c).arrAt_eq_of_cover 6 (hRes m c) (fun t _ => flushedH_eq m c t) coverH

/-! ## The run, read -/

/-- After the frame run the eleven argument arrays are as launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  ⟨((h c).1 1).trans (((dats m 0 c).arrAt_in 1 rfl _).trans ((A_eq m c 1).trans (V_main_arg0 m c))),
    ((h c).1 0).trans (((dats m 0 c).arrAt_in 0 rfl _).trans ((A_eq m c 0).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- Every weakly fair execution of the idealized kernel program terminates with the new hidden state and the new
    cell state in its two results, the arguments unchanged. -/
theorem run : θ_run defs (onTc (τ := τ) (main (F := Ideal))) ⟨m, fun _ => 0, ρ⟩ fun r => ∀ c : Dev nD,
      r.2.mem ((c : Thread nD τ).loc main_v7_0) = hRes m c
      ∧ r.2.mem ((c : Thread nD τ).loc main_v7_1) = cRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (finalH m c), ((h c).1 7).trans (finalC m c), kept m r h c⟩)
    (run_main m ρ)

end Cert.KernelIdeal.LstmValue

end
-- ==== Proof.RefValue.lean ====
/-
  The reference computes the LSTM cell of `LstmSpec`.

  The reference joins `prev_h` and `input_` into one row of length 1024, stacks the four gate weight matrices and
  the four biases, contracts the joined row against the transposed stack, adds the bias, and applies the gates to
  the four column groups of width 512. Read entry by entry: the contraction over 1024 positions splits into the
  hidden half and the input half (`LstmSpec.gate_of_joined`), each slice of the gate array reads a column group,
  and `1 / (1 + exp (-y))` is the logistic function on the extended reals.
-/
import proofs.«162105_j17102559772818_1_alg».proof.Proof.Gen.ReferenceIdeal.Read
import proofs.«162105_j17102559772818_1_alg».proof.Proof.LstmSpec
import Idealize.ShloMosaic.Lib.IdealHost

noncomputable section

namespace Cert.ReferenceIdeal.RefValue

open Cert.ReferenceIdeal Cert.ReferenceIdeal.Gen Cert.ReferenceIdeal.Read Cert.LstmSpec
open Idealize.ShloMosaic Idealize.ShloMosaic.ValueIdx
open scoped BigOperators

variable (x0 x1 x2 : (⟨S16384x512, .f32⟩ : BufTy).Contents (Elt Ideal))
variable (x3 x5 x7 x9 : (⟨S512x1024, .f32⟩ : BufTy).Contents (Elt Ideal))
variable (x4 x6 x8 x10 : (⟨S512, .f32⟩ : BufTy).Contents (Elt Ideal))

/-- The stacked weights and the stacked bias, as the reference builds them. -/
abbrev Wst : SW.Idx → EReal := val_main_v1 (F := Ideal) x3 x5 x7 x9
abbrev bst : Sv.Idx → EReal := val_main_v2 (F := Ideal) x4 x6 x8 x10

/-! ## The joined row -/

/-- The first 512 columns of the joined row are `prev_h`'s. -/
theorem joined_lo (p : Fin 16384) (k : Fin 512) : val_main_v0 (F := Ideal) x0 x1 (ix2 p (lo k)) = x1 (ix2 p k) := by
  unfold val_main_v0
  exact concatenate_pair_apply_left 1 x1 x0 concatenates_S16384x512_S16384x512_S16384x1024_d1 _ rfl _ (fun b => by
    match b with
    | ⟨0, _⟩ => rfl
    | ⟨1, _⟩ => rfl)

/-- The last 512 columns of the joined row are `input_`'s. -/
theorem joined_hi (p : Fin 16384) (k : Fin 512) : val_main_v0 (F := Ideal) x0 x1 (ix2 p (hi k)) = x0 (ix2 p k) := by
  unfold val_main_v0
  exact concatenate_pair_apply_right 1 x1 x0 concatenates_S16384x512_S16384x512_S16384x1024_d1 _ rfl rfl _
    (fun b hb => by
      match b with
      | ⟨0, _⟩ => rfl
      | ⟨1, _⟩ => exact absurd rfl hb)
    (by show k.val + 512 = 512 + k.val; omega)

/-! ## The gate array -/

theorem lidx_eq (p : Fin 16384) (j : Fin 2048) (k : Fin 1024) : lidx_main_v4 (ix2 p j) k = ix2 p k :=
  funext fun a => Fin.ext (by match a with | ⟨0, _⟩ => rfl | ⟨1, _⟩ => rfl)
theorem ridx_eq (p : Fin 16384) (j : Fin 2048) (k : Fin 1024) : idx_main_v3 (ridx_main_v4 (ix2 p j) k) = ix2 j k :=
  funext fun a => Fin.ext (by match a with | ⟨0, _⟩ => rfl | ⟨1, _⟩ => rfl)
theorem bidx_eq (p : Fin 16384) (j : Fin 2048) : idx_main_v5 (idx_main_v6 (ix2 p j)) = ix1 j :=
  funext fun a => Fin.ext (by match a with | ⟨0, _⟩ => rfl)

/-- The reference's gate array at row `p`, column `j`, is `gate`. -/
theorem gates_apply (p : Fin 16384) (j : Fin 2048) :
    val_main_v7 (F := Ideal) x0 x1 x3 x4 x5 x6 x7 x8 x9 x10 (ix2 p j) = gate x1 x0 (Wst x3 x5 x7 x9) (bst x4 x6 x8 x10) p j := by
  rw [val_main_v7_apply, val_main_v4_apply, val_main_v6_apply, val_main_v5_apply, bidx_eq]
  simp only [val_main_v3_apply, lidx_eq, ridx_eq]
  exact gate_of_joined x1 x0 (Wst x3 x5 x7 x9) (bst x4 x6 x8 x10) (val_main_v0 (F := Ideal) x0 x1)
    (joined_lo x0 x1) (joined_hi x0 x1) p j

/-! ## The four column groups -/

theorem sliceI_eq (p : Fin 16384) (q : Fin 512) : idx_main_v8 (ix2 p q) = ix2 p (gI q) :=
  funext fun a => Fin.ext (by match a with | ⟨0, _⟩ => rfl | ⟨1, _⟩ => rfl)
theorem sliceF_eq (p : Fin 16384) (q : Fin 512) : idx_main_v15 (ix2 p q) = ix2 p (gF q) :=
  funext fun a => Fin.ext (by match a with | ⟨0, _⟩ => rfl | ⟨1, _⟩ => rfl)
theorem sliceO_eq (p : Fin 16384) (q : Fin 512) : idx_main_v22 (ix2 p q) = ix2 p (gO q) :=
  funext fun a => Fin.ext (by match a with | ⟨0, _⟩ => rfl | ⟨1, _⟩ => rfl)
theorem sliceG_eq (p : Fin 16384) (q : Fin 512) : idx_main_v29 (ix2 p q) = ix2 p (gG q) :=
  funext fun a => Fin.ext (by match a with | ⟨0, _⟩ => rfl | ⟨1, _⟩ => rfl)

/-- `1 / (1 + exp (-y))`, in the host's operations over the pattern of one, is the logistic function. -/
theorem host_sigmoid (y : Ideal .f32) :
    FloatOps.hostDivf (FloatOps.ofBits .f32 0x3F800000#32 : Ideal .f32)
      (FloatOps.addf (FloatOps.ofBits .f32 0x3F800000#32 : Ideal .f32) (FloatOps.hostUnary .exp (FloatOps.hostNegf y)))
      = Ideal.logistic y := by
  show Ideal.div (Ideal.ofBits .f32 0x3F800000#32) (Ideal.ofBits .f32 0x3F800000#32 + Ideal.exp (-y)) = Ideal.logistic y
  rw [Ideal.ofBits_one_f32]
  rfl

theorem sigI_apply (p : Fin 16384) (q : Fin 512) :
    val_main_v14 (F := Ideal) x0 x1 x3 x4 x5 x6 x7 x8 x9 x10 (ix2 p q) = Ideal.logistic (gate x1 x0 (Wst x3 x5 x7 x9) (bst x4 x6 x8 x10) p (gI q)) := by
  rw [val_main_v14_apply, val_main_v13_apply, val_main_cst_0_apply, val_main_v12_apply, val_main_v11_apply, val_main_cst_apply,
    val_main_v10_apply, val_main_v9_apply, val_main_v8_apply, sliceI_eq, gates_apply, host_sigmoid]

theorem sigF_apply (p : Fin 16384) (q : Fin 512) :
    val_main_v21 (F := Ideal) x0 x1 x3 x4 x5 x6 x7 x8 x9 x10 (ix2 p q) = Ideal.logistic (gate x1 x0 (Wst x3 x5 x7 x9) (bst x4 x6 x8 x10) p (gF q)) := by
  rw [val_main_v21_apply, val_main_v20_apply, val_main_cst_2_apply, val_main_v19_apply, val_main_v18_apply, val_main_cst_1_apply,
    val_main_v17_apply, val_main_v16_apply, val_main_v15_apply, sliceF_eq, gates_apply, host_sigmoid]

theorem sigO_apply (p : Fin 16384) (q : Fin 512) :
    val_main_v28 (F := Ideal) x0 x1 x3 x4 x5 x6 x7 x8 x9 x10 (ix2 p q) = Ideal.logistic (gate x1 x0 (Wst x3 x5 x7 x9) (bst x4 x6 x8 x10) p (gO q)) := by
  rw [val_main_v28_apply, val_main_v27_apply, val_main_cst_4_apply, val_main_v26_apply, val_main_v25_apply, val_main_cst_3_apply,
    val_main_v24_apply, val_main_v23_apply, val_main_v22_apply, sliceO_eq, gates_apply, host_sigmoid]

theorem tanhG_apply (p : Fin 16384) (q : Fin 512) :
    val_main_v30 (F := Ideal) x0 x1 x3 x4 x5 x6 x7 x8 x9 x10 (ix2 p q) = Ideal.tanh (gate x1 x0 (Wst x3 x5 x7 x9) (bst x4 x6 x8 x10) p (gG q)) := by
  rw [val_main_v30_apply, val_main_v29_apply, sliceG_eq, gates_apply]
  rfl

/-! ## The two results -/

/-- The reference's new cell state is `cArr`. -/
theorem cell_eq : val_main_v33 (F := Ideal) x0 x1 x2 x3 x4 x5 x6 x7 x8 x9 x10 = cArr x1 x0 x2 (Wst x3 x5 x7 x9) (bst x4 x6 x8 x10) := by
  funext i
  obtain ⟨p, q, rfl⟩ : ∃ (p : Fin 16384) (q : Fin 512), i = ix2 p q := ⟨i 0, i 1, eq_ix2 i⟩
  rw [cArr_ix2, val_main_v33_apply, val_main_v31_apply, val_main_v32_apply, sigF_apply, sigI_apply, tanhG_apply]
  rfl

/-- The reference's new hidden state is `hArr`. -/
theorem hidden_eq : val_main_v35 (F := Ideal) x0 x1 x2 x3 x4 x5 x6 x7 x8 x9 x10 = hArr x1 x0 x2 (Wst x3 x5 x7 x9) (bst x4 x6 x8 x10) := by
  funext i
  obtain ⟨p, q, rfl⟩ : ∃ (p : Fin 16384) (q : Fin 512), i = ix2 p q := ⟨i 0, i 1, eq_ix2 i⟩
  rw [hArr_ix2, val_main_v35_apply, val_main_v34_apply, sigO_apply, congrFun (cell_eq x0 x1 x2 x3 x5 x7 x9 x4 x6 x8 x10) (ix2 p q), cArr_ix2]
  rfl

end Cert.ReferenceIdeal.RefValue

end
-- ==== Proof.lean ====
/-
  The certificate of the fused LSTM-cell kernel against its jnp reference.

  Both programs compute, for every batch row and hidden column, the cell of `LstmSpec`: the gate pre-activations
  from `prev_h`, `input_`, the stacked weights and the stacked bias, then
  c' = σ(f)·c + σ(i)·tanh(g) and h' = tanh(c')·σ(o). The kernel contracts the hidden half and the input half of a
  weight row separately, in 64 tiles of 256 rows; the reference contracts the joined row at once. On the extended
  reals the two are the same sums regrouped, so no finiteness is used.
  The three frames: the two kernel programs by the pipeline's frame run over the body's triple, the reference by
  its run. The idealization rewrote nothing, so `preserves` is trivial.
-/
import proofs.«162105_j17102559772818_1_alg».proof.Defs
import proofs.«162105_j17102559772818_1_alg».proof.Proof.Gen.Kernel
import proofs.«162105_j17102559772818_1_alg».proof.Proof.Gen.KernelIdeal
import proofs.«162105_j17102559772818_1_alg».proof.Proof.Gen.ReferenceIdeal
import proofs.«162105_j17102559772818_1_alg».proof.Proof.Gen.Pre_finite_inputs
import proofs.«162105_j17102559772818_1_alg».proof.Proof.Gen.ReferenceIdeal.Run
import proofs.«162105_j17102559772818_1_alg».proof.Proof.Gen.ReferenceIdeal.Read
import proofs.«162105_j17102559772818_1_alg».proof.Proof.BitsFrame
import proofs.«162105_j17102559772818_1_alg».proof.Proof.IdealFrame
import proofs.«162105_j17102559772818_1_alg».proof.Proof.IdealValue
import proofs.«162105_j17102559772818_1_alg».proof.Proof.RefValue

noncomputable section

namespace Cert.Proof

open Idealize.ShloMosaic Idealize.ShloMosaic.TcCoe Idealize.SL.Sem

theorem frame_p : Cert.frame_Kernel := fun m ρ _ => Cert.Kernel.Lstm.frame m ρ
theorem frame_pi : Cert.frame_KernelIdeal := fun m ρ _ => Cert.KernelIdeal.Lstm.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the arguments, the idealized kernel's two results are the cell's arrays of its
    arguments and the reference's are the cell's arrays of its own: the same arrays. -/
theorem algebraic : Cert.algebraic_KernelIdeal_ReferenceIdeal := by
  intro m ρ m' ρ' _ hagree
  refine ⟨fun c => Cert.KernelIdeal.LstmValue.hRes m c, fun c => Cert.KernelIdeal.LstmValue.cRes m c,
    Cert.KernelIdeal.LstmValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefValue.hidden_eq, a0, a1, a2, a3, a4, a5, a6, a7, a8, a9, a10]
    rfl
  · obtain ⟨a0, a1, a2, a3, a4, a5, a6, a7, a8, a9, a10⟩ := hagree c
    rw [Cert.ReferenceIdeal.Read.val_main_v33_eq, Cert.ReferenceIdeal.RefValue.cell_eq, a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
